-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x768 : Shape := ⟨3, ![8, 2048, 768]⟩
abbrev S8 : Shape := ⟨1, ![8]⟩
abbrev S3072x8 : Shape := ⟨2, ![3072, 8]⟩
abbrev S3072 : Shape := ⟨1, ![3072]⟩
abbrev S768x3072 : Shape := ⟨2, ![768, 3072]⟩
abbrev S768 : Shape := ⟨1, ![768]⟩
abbrev S_ : Shape := ⟨0, ![]⟩

class Facts : Prop where
  bcast_S_S8x2048x768 : S_.BroadcastsInDim S8x2048x768 (![] : Fin 0 → Fin S8x2048x768.rank)
  reducesTo_S8x2048x768_S_d0_1_2 : S8x2048x768.ReducesTo [0, 1, 2] S_
  h_S_ : 0 < S_.numel
  bcast_S_S8 : S_.BroadcastsInDim S8 (![] : Fin 0 → Fin S8.rank)
  reducesTo_S8_S_d0 : S8.ReducesTo [0] S_
  bcast_S_S3072x8 : S_.BroadcastsInDim S3072x8 (![] : Fin 0 → Fin S3072x8.rank)
  reducesTo_S3072x8_S_d0_1 : S3072x8.ReducesTo [0, 1] S_
  bcast_S_S3072 : S_.BroadcastsInDim S3072 (![] : Fin 0 → Fin S3072.rank)
  reducesTo_S3072_S_d0 : S3072.ReducesTo [0] S_
  bcast_S_S768x3072 : S_.BroadcastsInDim S768x3072 (![] : Fin 0 → Fin S768x3072.rank)
  reducesTo_S768x3072_S_d0_1 : S768x3072.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768x3072 .f32) (main_arg5 : FVec F S768 .f32) (main_v13 : IVec S_ 1) (main_v16 : IVec S3072 1) : IVec S_ 1 :=
  let main_c_5 : IVec S_ 1 := constantI S_ 1 1#1
  let main_v17 : IVec S_ 1 := (fun x v => Host.reduce IntOp.andi x v reducesTo_S3072_S_d0 h_S_) main_v16 main_c_5
  let main_v18 : IVec S_ 1 := andi main_v13 main_v17
  let main_v19 : FVec F S768x3072 .f32 := Host.absf main_arg4
  let main_cst_6 : FVec F S_ .f32 := constant S_ .f32 0x7F800000#32
  let main_v20 : FVec F S768x3072 .f32 := broadcastInDim S768x3072 ![] bcast_S_S768x3072 main_cst_6
  let main_v21 : IVec S768x3072 1 := cmpf .olt main_v19 main_v20
  let main_c_7 : IVec S_ 1 := constantI S_ 1 1#1
  let main_v22 : IVec S_ 1 := (fun x v => Host.reduce IntOp.andi x v reducesTo_S768x3072_S_d0_1 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  main_v28

def fn {F : FTy → Type} [FloatOps F] (main_arg0 : FVec F S8x2048x768 .f32) (main_arg1 : FVec F S8 .f32) (main_arg2 : FVec F S3072x8 .f32) (main_arg3 : FVec F S3072 .f32) (main_arg4 : FVec F S768x3072 .f32) (main_arg5 : FVec F S768 .f32) : IVec S_ 1 :=
  let main_v0 : FVec F S8x2048x768 .f32 := Host.absf main_arg0
  let main_cst : FVec F S_ .f32 := constant S_ .f32 0x7F800000#32
  let main_v1 : FVec F S8x2048x768 .f32 := broadcastInDim S8x2048x768 ![] bcast_S_S8x2048x768 main_cst
  let main_v2 : IVec S8x2048x768 1 := cmpf .olt main_v0 main_v1
  let main_c : IVec S_ 1 := constantI S_ 1 1#1
  let main_v3 : IVec S_ 1 := (fun x v => Host.reduce IntOp.andi x v reducesTo_S8x2048x768_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S3072x8 .f32 := Host.absf main_arg2
  let main_cst_2 : FVec F S_ .f32 := constant S_ .f32 0x7F800000#32
  let main_v10 : FVec F S3072x8 .f32 := broadcastInDim S3072x8 ![] bcast_S_S3072x8 main_cst_2
  let main_v11 : IVec S3072x8 1 := cmpf .olt main_v9 main_v10
  let main_c_3 : IVec S_ 1 := constantI S_ 1 1#1
  let main_v12 : IVec S_ 1 := (fun x v => Host.reduce IntOp.andi x v reducesTo_S3072x8_S_d0_1 h_S_) main_v11 main_c_3
  let main_v13 : IVec S_ 1 := andi main_v8 main_v12
  let main_v14 : FVec F S3072 .f32 := Host.absf main_arg3
  let main_cst_4 : FVec F S_ .f32 := constant S_ .f32 0x7F800000#32
  let main_v15 : FVec F S3072 .f32 := broadcastInDim S3072 ![] bcast_S_S3072 main_cst_4
  let main_v16 : IVec S3072 1 := cmpf .olt main_v14 main_v15
  fn_part1 (F := F) main_arg4 main_arg5 main_v13 main_v16
-- ==== Kernel.lean ====
abbrev S8x2048x768 : Shape := ⟨3, ![8, 2048, 768]⟩
abbrev S8 : Shape := ⟨1, ![8]⟩
abbrev S3072x8 : Shape := ⟨2, ![3072, 8]⟩
abbrev S3072 : Shape := ⟨1, ![3072]⟩
abbrev S768x3072 : Shape := ⟨2, ![768, 3072]⟩
abbrev S768 : Shape := ⟨1, ![768]⟩
abbrev S8x2048x8 : Shape := ⟨3, ![8, 2048, 8]⟩
abbrev S16384x8 : Shape := ⟨2, ![16384, 8]⟩
abbrev S1x8 : Shape := ⟨2, ![1, 8]⟩
abbrev S8x3072 : Shape := ⟨2, ![8, 3072]⟩
abbrev S1x3072 : Shape := ⟨2, ![1, 3072]⟩
abbrev S3072x768 : Shape := ⟨2, ![3072, 768]⟩
abbrev S1x768 : Shape := ⟨2, ![1, 768]⟩
abbrev S16384x768 : Shape := ⟨2, ![16384, 768]⟩
abbrev S512x8 : Shape := ⟨2, ![512, 8]⟩
abbrev S512x768 : Shape := ⟨2, ![512, 768]⟩
abbrev S512x3072 : Shape := ⟨2, ![512, 3072]⟩

abbrev nBuf : Space → Nat
  | .hbm => 17
  | .vmem => 9
  | .smem => 0
  | _ => 0

abbrev bufTy : (tb : Table) → Fin (tcTables nBuf tb) → BufTy
  | .hbm, ⟨0, _⟩ => ⟨S8x2048x768, .f32⟩
  | .hbm, ⟨1, _⟩ => ⟨S8, .f32⟩
  | .hbm, ⟨2, _⟩ => ⟨S3072x8, .f32⟩
  | .hbm, ⟨3, _⟩ => ⟨S3072, .f32⟩
  | .hbm, ⟨4, _⟩ => ⟨S768x3072, .f32⟩
  | .hbm, ⟨5, _⟩ => ⟨S768, .f32⟩
  | .hbm, ⟨6, _⟩ => ⟨S8x2048x8, .f32⟩
  | .hbm, ⟨7, _⟩ => ⟨S16384x8, .f32⟩
  | .hbm, ⟨8, _⟩ => ⟨S1x8, .f32⟩
  | .hbm, ⟨9, _⟩ => ⟨S8x3072, .f32⟩
  | .hbm, ⟨10, _⟩ => ⟨S8x3072, .bf16⟩
  | .hbm, ⟨11, _⟩ => ⟨S1x3072, .f32⟩
  | .hbm, ⟨12, _⟩ => ⟨S3072x768, .f32⟩
  | .hbm, ⟨13, _⟩ => ⟨S3072x768, .bf16⟩
  | .hbm, ⟨14, _⟩ => ⟨S1x768, .f32⟩
  | .hbm, ⟨15, _⟩ => ⟨S16384x768, .f32⟩
  | .hbm, ⟨16, _⟩ => ⟨S8x2048x768, .f32⟩
  | .local _ .vmem, ⟨0, _⟩ => ⟨S512x8, .f32⟩
  | .local _ .vmem, ⟨1, _⟩ => ⟨S512x8, .f32⟩
  | .local _ .vmem, ⟨2, _⟩ => ⟨S1x8, .f32⟩
  | .local _ .vmem, ⟨3, _⟩ => ⟨S8x3072, .bf16⟩
  | .local _ .vmem, ⟨4, _⟩ => ⟨S1x3072, .f32⟩
  | .local _ .vmem, ⟨5, _⟩ => ⟨S3072x768, .bf16⟩
  | .local _ .vmem, ⟨6, _⟩ => ⟨S1x768, .f32⟩
  | .local _ .vmem, ⟨7, _⟩ => ⟨S512x768, .f32⟩
  | .local _ .vmem, ⟨8, _⟩ => ⟨S512x768, .f32⟩
  | _, _ => ⟨S8x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3072x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S8x2048x768_S8x2048x8_0_0_0 : S8x2048x768.Slices ![0, 0, 0] S8x2048x8
  shapeCasts_S8x2048x8_S16384x8 : S8x2048x8.ShapeCasts S16384x8
  shapeCasts_S8_S1x8 : S8.ShapeCasts S1x8
  transposes_S3072x8_S8x3072_1_0 : S3072x8.Transposes [1, 0] S8x3072
  bitsLt_bf16_f32 : FTy.bits .bf16 < FTy.bits .f32
  shapeCasts_S3072_S1x3072 : S3072.ShapeCasts S1x3072
  transposes_S768x3072_S3072x768_1_0 : S768x3072.Transposes [1, 0] S3072x768
  shapeCasts_S768_S1x768 : S768.ShapeCasts S1x768
  inb_S512x8_S512x8_0_0 : ∀ a, (![0, 0] : Fin 2 → Nat) a + S512x8.size a ≤ S512x8.size a
  h_S512x8 : 0 < S512x8.numel
  shapeCasts_S512x8_S512x8 : S512x8.ShapeCasts S512x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S512x8 : S1x8.Broadcasts S512x8
  inb_S8x3072_S8x3072_0_0 : ∀ a, (![0, 0] : Fin 2 → Nat) a + S8x3072.size a ≤ S8x3072.size a
  h_S8x3072 : 0 < S8x3072.numel
  shapeCasts_S8x3072_S8x3072 : S8x3072.ShapeCasts S8x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S3072x768_S3072x768_0_0 : ∀ a, (![0, 0] : Fin 2 → Nat) a + S3072x768.size a ≤ S3072x768.size a
  h_S3072x768 : 0 < S3072x768.numel
  shapeCasts_S3072x768_S3072x768 : S3072x768.ShapeCasts S3072x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  inb_S512x768_S512x768_0_0 : ∀ a, (![0, 0] : Fin 2 → Nat) a + S512x768.size a ≤ S512x768.size a
  h_S512x768 : 0 < S512x768.numel
  shapeCasts_S16384x768_S8x2048x768 : S16384x768.ShapeCasts S8x2048x768
  dot_S512x8_S8x3072_S512x3072_1_0_0_1_n_n_wf : DotDims.WF S512x8 S8x3072 S512x3072 [1] [0] [0] [1] [] []
  dot_S512x3072_S3072x768_S512x768_1_0_0_1_n_n_wf : DotDims.WF S512x3072 S3072x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8.size a ≤ S16384x8.size a
  hwx0_0 : ∀ i : grid0.Coords, EltTy.bits .f32 = 32 ∨ (Rect.block (s := S16384x8) S512x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8.size a ≤ S1x8.size a
  hwx0_1 : ∀ i : grid0.Coords, EltTy.bits .f32 = 32 ∨ (Rect.block (s := S1x8) S1x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x3072.size a ≤ S8x3072.size a
  hwx0_2 : ∀ i : grid0.Coords, EltTy.bits .bf16 = 32 ∨ (Rect.block (s := S8x3072) S8x3072.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x3072.size a ≤ S1x3072.size a
  hwx0_3 : ∀ i : grid0.Coords, EltTy.bits .f32 = 32 ∨ (Rect.block (s := S1x3072) S1x3072.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3072x768.size a ≤ S3072x768.size a
  hwx0_4 : ∀ i : grid0.Coords, EltTy.bits .bf16 = 32 ∨ (Rect.block (s := S3072x768) S3072x768.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x768.size a ≤ S1x768.size a
  hwx0_5 : ∀ i : grid0.Coords, EltTy.bits .f32 = 32 ∨ (Rect.block (s := S1x768) S1x768.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x768.size a ≤ S16384x768.size a
  hwx0_6 : ∀ i : grid0.Coords, EltTy.bits .f32 = 32 ∨ (Rect.block (s := S16384x768) S512x768.size (cc0_transform_6 i) (hinb0_6 i)).WholeWords (EltTy.packing .f32)

variable [Facts₀]

def dot_S512x8_S8x3072_S512x3072_1_0_0_1_n_n : DotDims S512x8 S8x3072 S512x3072 where
  lhsContracting := [1]
  rhsContracting := [0]
  lhsNonContracting := [0]
  rhsNonContracting := [1]
  lhsBatch := []
  rhsBatch := []
  wf := dot_S512x8_S8x3072_S512x3072_1_0_0_1_n_n_wf
def dot_S512x3072_S3072x768_S512x768_1_0_0_1_n_n : DotDims S512x3072 S3072x768 S512x768 where
  lhsContracting := [1]
  rhsContracting := [0]
  lhsNonContracting := [0]
  rhsNonContracting := [1]
  lhsBatch := []
  rhsBatch := []
  wf := dot_S512x3072_S3072x768_S512x768_1_0_0_1_n_n_wf

abbrev win0_0 : Pipeline.Window sig grid0 :=
  Pipeline.Window.ofSpec (Memref.whole main_v1) S512x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S8x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S3072x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S512x768.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x2048x768 : Shape := ⟨3, ![8, 2048, 768]⟩
abbrev S8 : Shape := ⟨1, ![8]⟩
abbrev S3072x8 : Shape := ⟨2, ![3072, 8]⟩
abbrev S3072 : Shape := ⟨1, ![3072]⟩
abbrev S768x3072 : Shape := ⟨2, ![768, 3072]⟩
abbrev S768 : Shape := ⟨1, ![768]⟩
abbrev S8x2048x8 : Shape := ⟨3, ![8, 2048, 8]⟩
abbrev S1x1x8 : Shape := ⟨3, ![1, 1, 8]⟩
abbrev S8x2048x3072 : Shape := ⟨3, ![8, 2048, 3072]⟩
abbrev S1x1x3072 : Shape := ⟨3, ![1, 1, 3072]⟩
abbrev S_ : Shape := ⟨0, ![]⟩
abbrev S1x1x768 : Shape := ⟨3, ![1, 1, 768]⟩

abbrev nBuf : Space → Nat
  | .hbm => 22
  | .vmem => 0
  | .smem => 0
  | _ => 0

abbrev bufTy : (tb : Table) → Fin (tcTables nBuf tb) → BufTy
  | .hbm, ⟨0, _⟩ => ⟨S8x2048x768, .f32⟩
  | .hbm, ⟨1, _⟩ => ⟨S8, .f32⟩
  | .hbm, ⟨2, _⟩ => ⟨S3072x8, .f32⟩
  | .hbm, ⟨3, _⟩ => ⟨S3072, .f32⟩
  | .hbm, ⟨4, _⟩ => ⟨S768x3072, .f32⟩
  | .hbm, ⟨5, _⟩ => ⟨S768, .f32⟩
  | .hbm, ⟨6, _⟩ => ⟨S8x2048x8, .f32⟩
  | .hbm, ⟨7, _⟩ => ⟨S1x1x8, .f32⟩
  | .hbm, ⟨8, _⟩ => ⟨S8x2048x8, .f32⟩
  | .hbm, ⟨9, _⟩ => ⟨S8x2048x8, .f32⟩
  | .hbm, ⟨10, _⟩ => ⟨S8x2048x8, .f32⟩
  | .hbm, ⟨11, _⟩ => ⟨S8x2048x3072, .f32⟩
  | .hbm, ⟨12, _⟩ => ⟨S1x1x3072, .f32⟩
  | .hbm, ⟨13, _⟩ => ⟨S8x2048x3072, .f32⟩
  | .hbm, ⟨14, _⟩ => ⟨S8x2048x3072, .f32⟩
  | .hbm, ⟨15, _⟩ => ⟨S_, .f32⟩
  | .hbm, ⟨16, _⟩ => ⟨S8x2048x3072, .f32⟩
  | .hbm, ⟨17, _⟩ => ⟨S8x2048x3072, .f32⟩
  | .hbm, ⟨18, _⟩ => ⟨S8x2048x768, .f32⟩
  | .hbm, ⟨19, _⟩ => ⟨S1x1x768, .f32⟩
  | .hbm, ⟨20, _⟩ => ⟨S8x2048x768, .f32⟩
  | .hbm, ⟨21, _⟩ => ⟨S8x2048x768, .f32⟩
  | _, _ => ⟨S8x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_cst : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  slices_S8x2048x768_S8x2048x8_0_0_0 : S8x2048x768.Slices ![0, 0, 0] S8x2048x8
  bcast_S8_S1x1x8_2 : S8.BroadcastsInDim S1x1x8 (![2] : Fin 1 → Fin S1x1x8.rank)
  bcast_S1x1x8_S8x2048x8_0_1_2 : S1x1x8.BroadcastsInDim S8x2048x8 (![0, 1, 2] : Fin 3 → Fin S8x2048x8.rank)
  bcast_S3072_S1x1x3072_2 : S3072.BroadcastsInDim S1x1x3072 (![2] : Fin 1 → Fin S1x1x3072.rank)
  bcast_S1x1x3072_S8x2048x3072_0_1_2 : S1x1x3072.BroadcastsInDim S8x2048x3072 (![0, 1, 2] : Fin 3 → Fin S8x2048x3072.rank)
  bcast_S_S8x2048x3072 : S_.BroadcastsInDim S8x2048x3072 (![] : Fin 0 → Fin S8x2048x3072.rank)
  bcast_S768_S1x1x768_2 : S768.BroadcastsInDim S1x1x768 (![2] : Fin 1 → Fin S1x1x768.rank)
  bcast_S1x1x768_S8x2048x768_0_1_2 : S1x1x768.BroadcastsInDim S8x2048x768 (![0, 1, 2] : Fin 3 → Fin S8x2048x768.rank)
  dot_S8x2048x8_S3072x8_S8x2048x3072_2_1_01_0_n_n_wf : DotDims.WF S8x2048x8 S3072x8 S8x2048x3072 [2] [1] [0, 1] [0] [] []
  dot_S8x2048x3072_S768x3072_S8x2048x768_2_1_01_0_n_n_wf : DotDims.WF S8x2048x3072 S768x3072 S8x2048x768 [2] [1] [0, 1] [0] [] []

variable [Facts₀]

def dot_S8x2048x8_S3072x8_S8x2048x3072_2_1_01_0_n_n : DotDims S8x2048x8 S3072x8 S8x2048x3072 where
  lhsContracting := [2]
  rhsContracting := [1]
  lhsNonContracting := [0, 1]
  rhsNonContracting := [0]
  lhsBatch := []
  rhsBatch := []
  wf := dot_S8x2048x8_S3072x8_S8x2048x3072_2_1_01_0_n_n_wf
def dot_S8x2048x3072_S768x3072_S8x2048x768_2_1_01_0_n_n : DotDims S8x2048x3072 S768x3072 S8x2048x768 where
  lhsContracting := [2]
  rhsContracting := [1]
  lhsNonContracting := [0, 1]
  rhsNonContracting := [0]
  lhsBatch := []
  rhsBatch := []
  wf := dot_S8x2048x3072_S768x3072_S8x2048x768_2_1_01_0_n_n_wf

class Facts : Prop extends Facts₀ where

variable [Facts]
-- ==== Proof.Spec.lean ====
/-
  What both programs compute, as one function of the six argument arrays, index by index, on the extended reals.

  A token is a pair (b, s) with b < 8 and s < 2048. Of the token's row of `x` only the first eight columns are read.
  For q < 8 the measured value is  meas b s q = cos (x[b, s, q] + phi[q]).  The hidden layer has 3072 units,
    hidden b s f = max (Σ_{q<8} meas b s q · w1[f, q] + b1[f]) 0,
  and the result has 768 columns,
    out[b, s, e] = Σ_{f<3072} hidden b s f · w2[e, f] + b2[e].
  The zero of the `max` is kept as the float word both programs print; it is never evaluated.

  The kernel sees the tokens as the 16384 rows r = 2048·b + s of a matrix; `outRows` is the same function read by rows,
  and `tokenOfRow` / `rowOfToken` are the two directions of that renumbering.
-/
import Idealize.ShloMosaic.PureOps.Ideal
import Idealize.ShloMosaic.Lib.ValueIdx

noncomputable section

namespace Cert.Mlp

open Idealize.ShloMosaic Idealize.ShloMosaic.ValueIdx
open scoped BigOperators

/-- The shape of `x` and of the result: batch, sequence position, column. -/
abbrev STok : Shape := ⟨3, ![8, 2048, 768]⟩
/-- The rotation angles, one per measured column. -/
abbrev SPhi : Shape := ⟨1, ![8]⟩
/-- The first layer's weights, unit by measured column. -/
abbrev SW1 : Shape := ⟨2, ![3072, 8]⟩
/-- The first layer's bias. -/
abbrev SB1 : Shape := ⟨1, ![3072]⟩
/-- The second layer's weights, result column by unit. -/
abbrev SW2 : Shape := ⟨2, ![768, 3072]⟩
/-- The second layer's bias. -/
abbrev SB2 : Shape := ⟨1, ![768]⟩
/-- The result with the tokens numbered as rows. -/
abbrev SRows : Shape := ⟨2, ![16384, 768]⟩

/-- A measured column, as a column of `x`. -/
def col (q : Fin 8) : Fin 768 := ⟨q.val, by have := q.isLt; omega⟩

theorem col_val (q : Fin 8) : (col q).val = q.val := rfl

section
variable (x : STok.Idx → EReal) (phi : SPhi.Idx → EReal) (w1 : SW1.Idx → EReal) (b1 : SB1.Idx → EReal)
  (w2 : SW2.Idx → EReal) (b2 : SB2.Idx → EReal)

/-- The measured value of column `q` of token (b, s). -/
def meas (b : Fin 8) (s : Fin 2048) (q : Fin 8) : EReal :=
  Ideal.cos (x (ix3 b s (col q)) + phi (ix1 q))

/-- Unit `f` of the hidden layer at token (b, s). -/
def hidden (b : Fin 8) (s : Fin 2048) (f : Fin 3072) : EReal :=
  max ((∑ q : Fin 8, meas x phi b s q * w1 (ix2 f q)) + b1 (ix1 f)) (Ideal.ofBits .f32 0x00000000#32)

/-- Column `e` of the result at token (b, s). -/
def outAt (b : Fin 8) (s : Fin 2048) (e : Fin 768) : EReal :=
  (∑ f : Fin 3072, hidden x phi w1 b1 b s f * w2 (ix2 e f)) + b2 (ix1 e)

/-- The result array. -/
def out : STok.Idx → EReal := fun i => outAt x phi w1 b1 w2 b2 (i 0) (i 1) (i 2)

/-- Row `r` of the token matrix is token (r / 2048, r % 2048). -/
def rowB (r : Fin 16384) : Fin 8 := ⟨r.val / 2048, by have := r.isLt; omega⟩
def rowS (r : Fin 16384) : Fin 2048 := ⟨r.val % 2048, Nat.mod_lt _ (by decide)⟩

theorem rowB_val (r : Fin 16384) : (rowB r).val = r.val / 2048 := rfl
theorem rowS_val (r : Fin 16384) : (rowS r).val = r.val % 2048 := rfl

/-- The result read by rows. -/
def outRows : SRows.Idx → EReal := fun j => outAt x phi w1 b1 w2 b2 (rowB (j 0)) (rowS (j 0)) (j 1)

theorem out_apply (b : Fin 8) (s : Fin 2048) (e : Fin 768) :
    out x phi w1 b1 w2 b2 (ix3 b s e) = outAt x phi w1 b1 w2 b2 b s e := rfl

theorem outRows_apply (r : Fin 16384) (e : Fin 768) :
    outRows x phi w1 b1 w2 b2 (ix2 r e) = outAt x phi w1 b1 w2 b2 (rowB r) (rowS r) e := rfl

end

end Cert.Mlp

end
-- ==== Proof.RefValue.lean ====
/-
  The reference's result is the specification's `out`.

  The reference computes in three stages over the tokens (b, s): the measured values cos (x[b, s, q] + phi[q]) on the
  first eight columns, the hidden layer as a contraction over q with `w1` plus `b1` floored at zero, and the result as a
  contraction over the 3072 units with `w2` plus `b2`. Each stage read at an index is the matching stage of the
  specification: the operand indices the contractions and broadcasts use are the coordinates themselves.
-/
import proofs.«181434_j65481071398154_1_alg».proof.Proof.Gen.ReferenceIdeal.Read
import proofs.«181434_j65481071398154_1_alg».proof.Proof.Spec

noncomputable section

namespace Cert.ReferenceIdeal.RefValue

open Cert.ReferenceIdeal Cert.ReferenceIdeal.Read Cert.Mlp
open Idealize.ShloMosaic Idealize.ShloMosaic.ValueIdx
open scoped BigOperators

variable (x : STok.Idx → EReal) (phi : SPhi.Idx → EReal) (w1 : SW1.Idx → EReal) (b1 : SB1.Idx → EReal)
  (w2 : SW2.Idx → EReal) (b2 : SB2.Idx → EReal)

/-- The cosine stage at (b, s, q) is the measured value. -/
theorem meas_eq (b : Fin 8) (s : Fin 2048) (q : Fin 8) :
    val_main_v4 (F := Ideal) x phi (ix3 b s q) = meas x phi b s q := by
  rw [val_main_v4_apply, val_main_v3_apply, val_main_v0_apply, val_main_v2_apply, val_main_v1_apply]
  have e0 : idx_main_v0 (ix3 b s q) = ix3 b s (col q) :=
    funext fun a => by match a with | ⟨0, _⟩ => rfl | ⟨1, _⟩ => rfl | ⟨2, _⟩ => rfl
  have e1 : idx_main_v1 (idx_main_v2 (ix3 b s q)) = ix1 q :=
    funext fun a => by match a with | ⟨0, _⟩ => rfl
  rw [e0, e1]
  rfl

/-- The floored stage at (b, s, f) is the hidden unit. -/
theorem hidden_eq (b : Fin 8) (s : Fin 2048) (f : Fin 3072) :
    val_main_v9 (F := Ideal) x phi w1 b1 (ix3 b s f) = hidden x phi w1 b1 b s f := by
  rw [val_main_v9_apply, val_main_v8_apply, val_main_v5_apply, val_main_v7_apply, val_main_v6_apply,
    val_main_call0_v0_apply, val_main_call0_cst_apply]
  have el : ∀ k : Fin 8, lidx_main_v5 (ix3 b s f) k = ix3 b s k := fun k =>
    funext fun a => by match a with | ⟨0, _⟩ => rfl | ⟨1, _⟩ => rfl | ⟨2, _⟩ => rfl
  have er : ∀ k : Fin 8, ridx_main_v5 (ix3 b s f) k = ix2 f k := fun k =>
    funext fun a => by match a with | ⟨0, _⟩ => rfl | ⟨1, _⟩ => rfl
  have eb : idx_main_v6 (idx_main_v7 (ix3 b s f)) = ix1 f :=
    funext fun a => by match a with | ⟨0, _⟩ => rfl
  simp only [el, er, eb, meas_eq]
  rfl

/-- The last stage at (b, s, e) is the result. -/
theorem out_eq :
    val_main_v13 (F := Ideal) x phi w1 b1 w2 b2 = out x phi w1 b1 w2 b2 := by
  funext i
  obtain ⟨b, s, e, rfl⟩ : ∃ (b : Fin 8) (s : Fin 2048) (e : Fin 768), i = ix3 b s e := ⟨i 0, i 1, i 2, eq_ix3 i⟩
  rw [out_apply, val_main_v13_apply, val_main_v10_apply, val_main_v12_apply, val_main_v11_apply]
  have el : ∀ k : Fin 3072, lidx_main_v10 (ix3 b s e) k = ix3 b s k := fun k =>
    funext fun a => by match a with | ⟨0, _⟩ => rfl | ⟨1, _⟩ => rfl | ⟨2, _⟩ => rfl
  have er : ∀ k : Fin 3072, ridx_main_v10 (ix3 b s e) k = ix2 e k := fun k =>
    funext fun a => by match a with | ⟨0, _⟩ => rfl | ⟨1, _⟩ => rfl
  have eb : idx_main_v11 (idx_main_v12 (ix3 b s e)) = ix1 e :=
    funext fun a => by match a with | ⟨0, _⟩ => rfl
  simp only [el, er, eb, hidden_eq]
  rfl

end Cert.ReferenceIdeal.RefValue

end
-- ==== Proof.KernelBlock.lean ====
/-
  One grid point of the kernel, read at an index.

  At a point the body holds a block X of 512 token rows by the eight measured columns, the one-row arrays P (angles),
  B1 and B2 (biases), and the two weight matrices W1 (8 by 3072) and W2 (3072 by 768), already transposed. It stores
      blockOut p e = Σ_{f<3072} max (Σ_{q<8} cos (X[p, q] + P[0, q]) · W1[q, f] + B1[0, f]) 0 · W2[f, e] + B2[0, e].
  Both matrix products accumulate into a zero array, so each is the plain sum over its one contracted axis; the changes of
  float format are the identity on the extended reals; a one-row array broadcast down the rows is read at its one row.
-/
import proofs.«181434_j65481071398154_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen
open Idealize.ShloMosaic Idealize.ShloMosaic.ValueIdx
open scoped BigOperators

/-! ## The first product: rows by measured columns, against measured columns by units -/

theorem lhs1_0 (i : S512x3072.Idx) (q : dot_S512x8_S8x3072_S512x3072_1_0_0_1_n_n.contr.Idx) :
    (dot_S512x8_S8x3072_S512x3072_1_0_0_1_n_n.lhsIdx i q 0).val = (i 0).val := by
  unfold DotDims.lhsIdx
  rw [dif_neg (show ¬(0 : Fin S512x8.rank) ∈ dot_S512x8_S8x3072_S512x3072_1_0_0_1_n_n.lhsBatch by decide), dif_pos (show (0 : Fin S512x8.rank) ∈ dot_S512x8_S8x3072_S512x3072_1_0_0_1_n_n.lhsNonContracting by decide)]
  rfl
theorem lhs1_1 (i : S512x3072.Idx) (q : dot_S512x8_S8x3072_S512x3072_1_0_0_1_n_n.contr.Idx) :
    (dot_S512x8_S8x3072_S512x3072_1_0_0_1_n_n.lhsIdx i q 1).val = (q ⟨0, by decide⟩).val :=
  dot_S512x8_S8x3072_S512x3072_1_0_0_1_n_n.lhsIdx_val_of_single rfl i q
theorem rhs1_0 (i : S512x3072.Idx) (q : dot_S512x8_S8x3072_S512x3072_1_0_0_1_n_n.contr.Idx) :
    (dot_S512x8_S8x3072_S512x3072_1_0_0_1_n_n.rhsIdx i q 0).val = (q ⟨0, by decide⟩).val :=
  dot_S512x8_S8x3072_S512x3072_1_0_0_1_n_n.rhsIdx_val_of_single rfl i q
theorem rhs1_1 (i : S512x3072.Idx) (q : dot_S512x8_S8x3072_S512x3072_1_0_0_1_n_n.contr.Idx) :
    (dot_S512x8_S8x3072_S512x3072_1_0_0_1_n_n.rhsIdx i q 1).val = (i 1).val := by
  unfold DotDims.rhsIdx
  rw [dif_neg (show ¬(1 : Fin S8x3072.rank) ∈ dot_S512x8_S8x3072_S512x3072_1_0_0_1_n_n.rhsBatch by decide), dif_pos (show (1 : Fin S8x3072.rank) ∈ dot_S512x8_S8x3072_S512x3072_1_0_0_1_n_n.rhsNonContracting by decide)]
  rfl

/-- Into a zero accumulator the first product at (p, f) is the sum over the eight measured columns. -/
theorem matmul1_apply (l : FVec Ideal S512x8 .bf16) (r : FVec Ideal S8x3072 .bf16) (p : Fin 512) (f : Fin 3072) :
    matmul dot_S512x8_S8x3072_S512x3072_1_0_0_1_n_n none l r (constant (F := Ideal) S512x3072 .f32 0x00000000#32) (ix2 p f)
      = ∑ q : Fin 8, l (ix2 p q) * r (ix2 q f) := by
  simp only [Idealize.ShloMosaic.matmul]
  rw [Ideal.matmul_constant_zero_apply, ← Equiv.sum_comp (contrEquiv1 dot_S512x8_S8x3072_S512x3072_1_0_0_1_n_n 8 rfl rfl).symm]
  refine Finset.sum_congr rfl fun k _ => ?_
  have hk := contrEquiv1_symm_val dot_S512x8_S8x3072_S512x3072_1_0_0_1_n_n 8 rfl rfl k
  have el : dot_S512x8_S8x3072_S512x3072_1_0_0_1_n_n.lhsIdx (ix2 p f) ((contrEquiv1 dot_S512x8_S8x3072_S512x3072_1_0_0_1_n_n 8 rfl rfl).symm k) = ix2 p k := funext fun a => Fin.ext (by
    match a with
    | ⟨0, _⟩ => exact lhs1_0 _ _
    | ⟨1, _⟩ => exact (lhs1_1 _ _).trans hk)
  have er : dot_S512x8_S8x3072_S512x3072_1_0_0_1_n_n.rhsIdx (ix2 p f) ((contrEquiv1 dot_S512x8_S8x3072_S512x3072_1_0_0_1_n_n 8 rfl rfl).symm k) = ix2 k f := funext fun a => Fin.ext (by
    match a with
    | ⟨0, _⟩ => exact (rhs1_0 _ _).trans hk
    | ⟨1, _⟩ => exact rhs1_1 _ _)
  rw [el, er]

/-! ## The second product: rows by units, against units by result columns -/

theorem lhs2_0 (i : S512x768.Idx) (q : dot_S512x3072_S3072x768_S512x768_1_0_0_1_n_n.contr.Idx) :
    (dot_S512x3072_S3072x768_S512x768_1_0_0_1_n_n.lhsIdx i q 0).val = (i 0).val := by
  unfold DotDims.lhsIdx
  rw [dif_neg (show ¬(0 : Fin S512x3072.rank) ∈ dot_S512x3072_S3072x768_S512x768_1_0_0_1_n_n.lhsBatch by decide), dif_pos (show (0 : Fin S512x3072.rank) ∈ dot_S512x3072_S3072x768_S512x768_1_0_0_1_n_n.lhsNonContracting by decide)]
  rfl
theorem lhs2_1 (i : S512x768.Idx) (q : dot_S512x3072_S3072x768_S512x768_1_0_0_1_n_n.contr.Idx) :
    (dot_S512x3072_S3072x768_S512x768_1_0_0_1_n_n.lhsIdx i q 1).val = (q ⟨0, by decide⟩).val :=
  dot_S512x3072_S3072x768_S512x768_1_0_0_1_n_n.lhsIdx_val_of_single rfl i q
theorem rhs2_0 (i : S512x768.Idx) (q : dot_S512x3072_S3072x768_S512x768_1_0_0_1_n_n.contr.Idx) :
    (dot_S512x3072_S3072x768_S512x768_1_0_0_1_n_n.rhsIdx i q 0).val = (q ⟨0, by decide⟩).val :=
  dot_S512x3072_S3072x768_S512x768_1_0_0_1_n_n.rhsIdx_val_of_single rfl i q
theorem rhs2_1 (i : S512x768.Idx) (q : dot_S512x3072_S3072x768_S512x768_1_0_0_1_n_n.contr.Idx) :
    (dot_S512x3072_S3072x768_S512x768_1_0_0_1_n_n.rhsIdx i q 1).val = (i 1).val := by
  unfold DotDims.rhsIdx
  rw [dif_neg (show ¬(1 : Fin S3072x768.rank) ∈ dot_S512x3072_S3072x768_S512x768_1_0_0_1_n_n.rhsBatch by decide), dif_pos (show (1 : Fin S3072x768.rank) ∈ dot_S512x3072_S3072x768_S512x768_1_0_0_1_n_n.rhsNonContracting by decide)]
  rfl

/-- Into a zero accumulator the second product at (p, e) is the sum over the 3072 units. -/
theorem matmul2_apply (l : FVec Ideal S512x3072 .bf16) (r : FVec Ideal S3072x768 .bf16) (p : Fin 512) (e : Fin 768) :
    matmul dot_S512x3072_S3072x768_S512x768_1_0_0_1_n_n none l r (constant (F := Ideal) S512x768 .f32 0x00000000#32) (ix2 p e)
      = ∑ f : Fin 3072, l (ix2 p f) * r (ix2 f e) := by
  simp only [Idealize.ShloMosaic.matmul]
  rw [Ideal.matmul_constant_zero_apply, ← Equiv.sum_comp (contrEquiv1 dot_S512x3072_S3072x768_S512x768_1_0_0_1_n_n 3072 rfl rfl).symm]
  refine Finset.sum_congr rfl fun k _ => ?_
  have hk := contrEquiv1_symm_val dot_S512x3072_S3072x768_S512x768_1_0_0_1_n_n 3072 rfl rfl k
  have el : dot_S512x3072_S3072x768_S512x768_1_0_0_1_n_n.lhsIdx (ix2 p e) ((contrEquiv1 dot_S512x3072_S3072x768_S512x768_1_0_0_1_n_n 3072 rfl rfl).symm k) = ix2 p k := funext fun a => Fin.ext (by
    match a with
    | ⟨0, _⟩ => exact lhs2_0 _ _
    | ⟨1, _⟩ => exact (lhs2_1 _ _).trans hk)
  have er : dot_S512x3072_S3072x768_S512x768_1_0_0_1_n_n.rhsIdx (ix2 p e) ((contrEquiv1 dot_S512x3072_S3072x768_S512x768_1_0_0_1_n_n 3072 rfl rfl).symm k) = ix2 k e := funext fun a => Fin.ext (by
    match a with
    | ⟨0, _⟩ => exact (rhs2_0 _ _).trans hk
    | ⟨1, _⟩ => exact rhs2_1 _ _)
  rw [el, er]

/-! ## The stored block -/

/-- What the body stores at row `p`, column `e` of its block, from the six blocks it loads. -/
def blockOut (X : S512x8.Idx → EReal) (P : S1x8.Idx → EReal) (W1 : S8x3072.Idx → EReal) (B1 : S1x3072.Idx → EReal)
    (W2 : S3072x768.Idx → EReal) (B2 : S1x768.Idx → EReal) (p : Fin 512) (e : Fin 768) : EReal :=
  (∑ f : Fin 3072,
      max ((∑ q : Fin 8, Ideal.cos (X (ix2 p q) + P (ix2 (0 : Fin 1) q)) * W1 (ix2 q f)) + B1 (ix2 (0 : Fin 1) f))
          (Ideal.ofBits .f32 0x00000000#32)
        * W2 (ix2 f e))
    + B2 (ix2 (0 : Fin 1) e)

theorem cos_apply {s : Shape} (a : FVec Ideal s .f32) (i : s.Idx) : cos a i = Ideal.cos (a i) := rfl

/-- The body's stored value at (p, e) is `blockOut` of its loads. -/
theorem pay_apply (v0 : Vec Ideal S512x8 .f32) (v2 : Vec Ideal S1x8 .f32) (v8 : Vec Ideal S8x3072 .bf16)
    (v11 : Vec Ideal S1x3072 .f32) (v18 : Vec Ideal S3072x768 .bf16) (v21 : Vec Ideal S1x768 .f32)
    (p : Fin 512) (e : Fin 768) :
    k0_pay1 (F := Ideal) v0 v2 v8 v11 v18 v21 (ix2 p e) = blockOut v0 v2 v8 v11 v18 v21 p e := by
  unfold k0_pay1 blockOut
  rw [addf_apply, matmul2_apply, broadcastTo_1b_ab_apply]
  simp only [truncf_apply, maximumf_apply, addf_apply, matmul1_apply, broadcastTo_1b_ab_apply, broadcast_apply,
    shapeCast_self, cos_apply]
  rfl

end Cert.KernelIdeal.Block

end
-- ==== Proof.KernelRows.lean ====
/-
  The kernel's result array is the specification's `out`.

  Before the region the host lays the operands out: the first eight columns of `x` with the tokens numbered as the
  16384 rows r = 2048·b + s; `phi`, `b1`, `b2` as one-row matrices; `w1` and `w2` transposed (their change of float
  format is the identity here). Grid point t loads rows 512·t … 512·t + 511 of the row matrix and the other five
  operands whole, and writes back rows 512·t … of the result matrix; by the block computation those rows are rows of
  `outRows`. The 32 points' row blocks tile the 16384 rows, row r lying in block r / 512, so the result matrix ends as
  `outRows`; the reshape after the region renumbers row 2048·b + s as token (b, s), which turns `outRows` into `out`.
-/
import proofs.«181434_j65481071398154_1_alg».proof.Proof.Gen.KernelIdeal.Frame
import proofs.«181434_j65481071398154_1_alg».proof.Proof.KernelBlock
import proofs.«181434_j65481071398154_1_alg».proof.Proof.Spec
import Idealize.ShloMosaic.Lib.Pipeline.Value
import Idealize.ShloMosaic.Lib.StableHlo.Run
import Idealize.ShloMosaic.Lib.ValueLayout

set_option maxRecDepth 16384

noncomputable section

namespace Cert.KernelIdeal.Rows

open Cert.KernelIdeal Cert.KernelIdeal.Gen Cert.KernelIdeal.Block Cert.Mlp
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The argument arrays as launched on core `c` -/

abbrev aX (c : Dev nD) : STok.Idx → EReal := m ((c : Thread nD τ).loc main_arg0)
abbrev aPhi (c : Dev nD) : SPhi.Idx → EReal := m ((c : Thread nD τ).loc main_arg1)
abbrev aW1 (c : Dev nD) : SW1.Idx → EReal := m ((c : Thread nD τ).loc main_arg2)
abbrev aB1 (c : Dev nD) : SB1.Idx → EReal := m ((c : Thread nD τ).loc main_arg3)
abbrev aW2 (c : Dev nD) : SW2.Idx → EReal := m ((c : Thread nD τ).loc main_arg4)
abbrev aB2 (c : Dev nD) : SB2.Idx → EReal := m ((c : Thread nD τ).loc main_arg5)

/-! ## The operands the host prepares, read at an index -/

/-- Row r, column q of the row matrix is `x` at token (r / 2048, r % 2048), column q. -/
theorem rows_apply (c : Dev nD) (r : Fin 16384) (q : Fin 8) :
    (V m c main_v1 : S16384x8.Idx → EReal) (ix2 r q) = aX m c (ix3 (rowB r) (rowS r) (col q)) := by
  have e : (V m c main_v1 : S16384x8.Idx → EReal)
      = shapeCast S16384x8 (extractStridedSlice S8x2048x8 ![0, 0, 0] (aX m c) slices_S8x2048x768_S8x2048x8_0_0_0) shapeCasts_S8x2048x8_S16384x8 := by
    show StableHlo.after hostOps0 (fun b => m (c, b)) (Proc.devRef .tc main_v1) = _
    after_results
    rfl
  rw [e]
  refine (shapeCast_apply _ shapeCasts_S8x2048x8_S16384x8 (ix2 r q) (ix3 (rowB r) (rowS r) q) ?_).trans ?_
  · rw [Shape.rowMajor_val_three, Shape.rowMajor_val_two]
    show (r.val / 2048 * 2048 + r.val % 2048) * 8 + q.val = r.val * 8 + q.val
    omega
  · exact extractStridedSlice_apply ![0, 0, 0] (aX m c) slices_S8x2048x768_S8x2048x8_0_0_0 (ix3 (rowB r) (rowS r) q)
      (ix3 (rowB r) (rowS r) (col q)) (fun a => match a with
        | ⟨0, _⟩ => by show (rowB r).val = 0 + (rowB r).val; omega
        | ⟨1, _⟩ => by show (rowS r).val = 0 + (rowS r).val; omega
        | ⟨2, _⟩ => by show (col q).val = 0 + q.val; rw [col_val]; omega)

/-- The one row of angles. -/
theorem phi_apply (c : Dev nD) (q : Fin 8) :
    (V m c main_v2 : S1x8.Idx → EReal) (ix2 (0 : Fin 1) q) = aPhi m c (ix1 q) := by
  have e : (V m c main_v2 : S1x8.Idx → EReal) = shapeCast S1x8 (aPhi m c) shapeCasts_S8_S1x8 := by
    show StableHlo.after hostOps0 (fun b => m (c, b)) (Proc.devRef .tc main_v2) = _
    after_results
    rfl
  rw [e]
  exact shapeCast_a_1a_apply (aPhi m c) shapeCasts_S8_S1x8 0 q

/-- The first layer's weights, transposed. -/
theorem w1_apply (c : Dev nD) (q : Fin 8) (f : Fin 3072) :
    (V m c main_v4 : S8x3072.Idx → EReal) (ix2 q f) = aW1 m c (ix2 f q) := by
  have e : (V m c main_v4 : S8x3072.Idx → EReal)
      = fun i => transpose S8x3072 [1, 0] (aW1 m c) transposes_S3072x8_S8x3072_1_0 i := by
    show StableHlo.after hostOps0 (fun b => m (c, b)) (Proc.devRef .tc main_v4) = _
    after_results
    rfl
  rw [e]
  exact transpose_ix2_apply (aW1 m c) transposes_S3072x8_S8x3072_1_0 q f

/-- The one row of the first layer's bias. -/
theorem b1_apply (c : Dev nD) (f : Fin 3072) :
    (V m c main_v5 : S1x3072.Idx → EReal) (ix2 (0 : Fin 1) f) = aB1 m c (ix1 f) := by
  have e : (V m c main_v5 : S1x3072.Idx → EReal) = shapeCast S1x3072 (aB1 m c) shapeCasts_S3072_S1x3072 := by
    show StableHlo.after hostOps0 (fun b => m (c, b)) (Proc.devRef .tc main_v5) = _
    after_results
    rfl
  rw [e]
  exact shapeCast_a_1a_apply (aB1 m c) shapeCasts_S3072_S1x3072 0 f

/-- The second layer's weights, transposed. -/
theorem w2_apply (c : Dev nD) (f : Fin 3072) (e : Fin 768) :
    (V m c main_v7 : S3072x768.Idx → EReal) (ix2 f e) = aW2 m c (ix2 e f) := by
  have h : (V m c main_v7 : S3072x768.Idx → EReal)
      = fun i => transpose S3072x768 [1, 0] (aW2 m c) transposes_S768x3072_S3072x768_1_0 i := by
    show StableHlo.after hostOps0 (fun b => m (c, b)) (Proc.devRef .tc main_v7) = _
    after_results
    rfl
  rw [h]
  exact transpose_ix2_apply (aW2 m c) transposes_S768x3072_S3072x768_1_0 f e

/-- The one row of the second layer's bias. -/
theorem b2_apply (c : Dev nD) (e : Fin 768) :
    (V m c main_v8 : S1x768.Idx → EReal) (ix2 (0 : Fin 1) e) = aB2 m c (ix1 e) := by
  have h : (V m c main_v8 : S1x768.Idx → EReal) = shapeCast S1x768 (aB2 m c) shapeCasts_S768_S1x768 := by
    show StableHlo.after hostOps0 (fun b => m (c, b)) (Proc.devRef .tc main_v8) = _
    after_results
    rfl
  rw [h]
  exact shapeCast_a_1a_apply (aB2 m c) shapeCasts_S768_S1x768 0 e

/-! ## Which block each window holds at a point -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)

/-- Point t's block of the row matrix is its rows 512·t … 512·t + 511. -/
theorem iblk0_apply (c : Dev nD) (t : Fin cfg0.N) (y : S512x8.Idx) (k : S16384x8.Idx)
    (hk0 : (k 0).val = 512 * t.val + (y 0).val) (hk1 : (k 1).val = (y 1).val) :
    (iblk m c 0 t : Vec Ideal S512x8 .f32) y = (V m c main_v1 : S16384x8.Idx → EReal) k := by
  obtain ⟨e0, e1⟩ := idx0 t
  unfold iblk
  rw [View.read_apply]
  show V m c main_v1 _ = V m c main_v1 _
  congr 1
  funext a
  apply Fin.ext
  match a with
  | ⟨0, _⟩ => show win0_0.index t 0 * 512 + 1 * (y 0).val = (k 0).val; rw [e0, hk0]; omega
  | ⟨1, _⟩ => show win0_0.index t 1 * 8 + 1 * (y 1).val = (k 1).val; rw [e1, hk1]; omega

/-- The other five operands are loaded whole at every point. -/
theorem iblk1_apply (c : Dev nD) (t : Fin cfg0.N) (y : S1x8.Idx) :
    (iblk m c 1 t : Vec Ideal S1x8 .f32) y = (V m c main_v2 : S1x8.Idx → EReal) y := by
  obtain ⟨e0, e1⟩ := idx1 t
  unfold iblk
  rw [View.read_apply]
  show V m c main_v2 _ = V m c main_v2 _
  congr 1
  funext a
  apply Fin.ext
  match a with
  | ⟨0, _⟩ => show win0_1.index t 0 * 1 + 1 * (y 0).val = (y 0).val; rw [e0]; omega
  | ⟨1, _⟩ => show win0_1.index t 1 * 8 + 1 * (y 1).val = (y 1).val; rw [e1]; omega

theorem iblk2_apply (c : Dev nD) (t : Fin cfg0.N) (y : S8x3072.Idx) :
    (iblk m c 2 t : Vec Ideal S8x3072 .bf16) y = (V m c main_v4 : S8x3072.Idx → EReal) y := by
  obtain ⟨e0, e1⟩ := idx2 t
  unfold iblk
  rw [View.read_apply]
  show V m c main_v4 _ = V m c main_v4 _
  congr 1
  funext a
  apply Fin.ext
  match a with
  | ⟨0, _⟩ => show win0_2.index t 0 * 8 + 1 * (y 0).val = (y 0).val; rw [e0]; omega
  | ⟨1, _⟩ => show win0_2.index t 1 * 3072 + 1 * (y 1).val = (y 1).val; rw [e1]; omega

theorem iblk3_apply (c : Dev nD) (t : Fin cfg0.N) (y : S1x3072.Idx) :
    (iblk m c 3 t : Vec Ideal S1x3072 .f32) y = (V m c main_v5 : S1x3072.Idx → EReal) y := by
  obtain ⟨e0, e1⟩ := idx3 t
  unfold iblk
  rw [View.read_apply]
  show V m c main_v5 _ = V m c main_v5 _
  congr 1
  funext a
  apply Fin.ext
  match a with
  | ⟨0, _⟩ => show win0_3.index t 0 * 1 + 1 * (y 0).val = (y 0).val; rw [e0]; omega
  | ⟨1, _⟩ => show win0_3.index t 1 * 3072 + 1 * (y 1).val = (y 1).val; rw [e1]; omega

theorem iblk4_apply (c : Dev nD) (t : Fin cfg0.N) (y : S3072x768.Idx) :
    (iblk m c 4 t : Vec Ideal S3072x768 .bf16) y = (V m c main_v7 : S3072x768.Idx → EReal) y := by
  obtain ⟨e0, e1⟩ := idx4 t
  unfold iblk
  rw [View.read_apply]
  show V m c main_v7 _ = V m c main_v7 _
  congr 1
  funext a
  apply Fin.ext
  match a with
  | ⟨0, _⟩ => show win0_4.index t 0 * 3072 + 1 * (y 0).val = (y 0).val; rw [e0]; omega
  | ⟨1, _⟩ => show win0_4.index t 1 * 768 + 1 * (y 1).val = (y 1).val; rw [e1]; omega

theorem iblk5_apply (c : Dev nD) (t : Fin cfg0.N) (y : S1x768.Idx) :
    (iblk m c 5 t : Vec Ideal S1x768 .f32) y = (V m c main_v8 : S1x768.Idx → EReal) y := by
  obtain ⟨e0, e1⟩ := idx5 t
  unfold iblk
  rw [View.read_apply]
  show V m c main_v8 _ = V m c main_v8 _
  congr 1
  funext a
  apply Fin.ext
  match a with
  | ⟨0, _⟩ => show win0_5.index t 0 * 1 + 1 * (y 0).val = (y 0).val; rw [e0]; omega
  | ⟨1, _⟩ => show win0_5.index t 1 * 768 + 1 * (y 1).val = (y 1).val; rw [e1]; omega

/-! ## One point computes its rows of the result -/

/-- A block whose loads are row r of the row matrix (at its row p) and the other operands whole computes row r of the
    result. -/
theorem blockOut_rows (X : S512x8.Idx → EReal) (P : S1x8.Idx → EReal) (W1 : S8x3072.Idx → EReal) (B1 : S1x3072.Idx → EReal)
    (W2 : S3072x768.Idx → EReal) (B2 : S1x768.Idx → EReal)
    (x : STok.Idx → EReal) (phi : SPhi.Idx → EReal) (w1 : SW1.Idx → EReal) (b1 : SB1.Idx → EReal)
    (w2 : SW2.Idx → EReal) (b2 : SB2.Idx → EReal) (r : Fin 16384) (p : Fin 512)
    (hX : ∀ q : Fin 8, X (ix2 p q) = x (ix3 (rowB r) (rowS r) (col q)))
    (hP : ∀ q : Fin 8, P (ix2 (0 : Fin 1) q) = phi (ix1 q))
    (hW1 : ∀ (q : Fin 8) (f : Fin 3072), W1 (ix2 q f) = w1 (ix2 f q))
    (hB1 : ∀ f : Fin 3072, B1 (ix2 (0 : Fin 1) f) = b1 (ix1 f))
    (hW2 : ∀ (f : Fin 3072) (e : Fin 768), W2 (ix2 f e) = w2 (ix2 e f))
    (hB2 : ∀ e : Fin 768, B2 (ix2 (0 : Fin 1) e) = b2 (ix1 e)) (e : Fin 768) :
    blockOut X P W1 B1 W2 B2 p e = outAt x phi w1 b1 w2 b2 (rowB r) (rowS r) e := by
  unfold blockOut Cert.Mlp.outAt Cert.Mlp.hidden Cert.Mlp.meas
  simp only [hX, hP, hW1, hB1, hW2, hB2]

/-- The body's stored value at index j of point t's block is `outRows` at the index k of the result matrix that j is
    there: row 512·t + (j 0), the same column. -/
theorem point_eq (c : Dev nD) (t : Fin cfg0.N) (j : S512x768.Idx) (k : S16384x768.Idx)
    (hk0 : (k 0).val = 512 * t.val + (j 0).val) (hk1 : (k 1).val = (j 1).val) :
    k0_pay1 (F := Ideal) (iblk m c 0 t) (iblk m c 1 t) (iblk m c 2 t) (iblk m c 3 t) (iblk m c 4 t) (iblk m c 5 t) j = outRows (aX m c) (aPhi m c) (aW1 m c) (aB1 m c) (aW2 m c) (aB2 m c) k := by
  obtain ⟨p, e, rfl⟩ : ∃ (p : Fin 512) (e : Fin 768), j = ix2 p e := ⟨j 0, j 1, eq_ix2 j⟩
  obtain ⟨r, e', rfl⟩ : ∃ (r : Fin 16384) (e' : Fin 768), k = ix2 r e' := ⟨k 0, k 1, eq_ix2 k⟩
  have hr : r.val = 512 * t.val + p.val := hk0
  obtain rfl : e' = e := Fin.ext hk1
  rw [outRows_apply]
  refine (pay_apply (iblk m c 0 t) (iblk m c 1 t) (iblk m c 2 t) (iblk m c 3 t) (iblk m c 4 t) (iblk m c 5 t) p e').trans ?_
  exact blockOut_rows (iblk m c 0 t) (iblk m c 1 t) (iblk m c 2 t) (iblk m c 3 t) (iblk m c 4 t) (iblk m c 5 t) (aX m c) (aPhi m c) (aW1 m c) (aB1 m c) (aW2 m c) (aB2 m c) r p
    (fun q => (iblk0_apply m c t (ix2 p q) (ix2 r q) hr rfl).trans (rows_apply m c r q))
    (fun q => (iblk1_apply m c t (ix2 (0 : Fin 1) q)).trans (phi_apply m c q))
    (fun q f => (iblk2_apply m c t (ix2 q f)).trans (w1_apply m c q f))
    (fun f => (iblk3_apply m c t (ix2 (0 : Fin 1) f)).trans (b1_apply m c f))
    (fun f e => (iblk4_apply m c t (ix2 f e)).trans (w2_apply m c f e))
    (fun e => (iblk5_apply m c t (ix2 (0 : Fin 1) e)).trans (b2_apply m c e)) e'

/-! ## What a point writes back, and the array the points leave -/

theorem hz : (![0, 0] : Fin 2 → Nat) = fun _ => 0 := funext fun a => by fin_cases a <;> rfl

/-- Point t writes back block t of `outRows`. -/
theorem flushed_eq (c : Dev nD) (t : Fin cfg0.N) :
    (dats m 0 c).flushed 6 t = ((cfg0.win 6).blk t).view.read (Elt Ideal) (outRows (aX m c) (aPhi m c) (aW1 m c) (aB1 m c) (aW2 m c) (aB2 m c)) := by
  obtain ⟨e0, e1⟩ := idx6 t
  show (cfg0.win 6).cut (grid0.coords t) ((dats m 0 c).after 6 t) = _
  rw [after0_6]
  unfold out0_6
  rw [View.canon_unit_zero hz]
  simp only [View.ld_unit_zero (S := S512x8) hz, View.ld_unit_zero (S := S1x8) hz, View.ld_unit_zero (S := S8x3072) hz,
    View.ld_unit_zero (S := S1x3072) hz, View.ld_unit_zero (S := S3072x768) hz, View.ld_unit_zero (S := S1x768) hz]
  funext j
  refine point_eq m c t j (((cfg0.win 6).blk t).view.emb j) ?_ ?_
  · show win0_6.index t 0 * 512 + 1 * (j 0).val = 512 * t.val + (j 0).val; rw [e0]; omega
  · show win0_6.index t 1 * 768 + 1 * (j 1).val = (j 1).val; rw [e1]; omega

/-- An index of the result matrix is in point t's block iff each coordinate is in the block's range on its axis. -/
theorem mem_blk (t : Fin cfg0.N) (i : S16384x768.Idx) :
    i ∈ ((cfg0.win 6).blk t).view.set ↔ ∀ a : Fin 2, win0_6.index t a * S512x768.size a ≤ (i a).val ∧ (i a).val < win0_6.index t a * S512x768.size a + S512x768.size a := by
  show i ∈ ((View.whole main_v9).slice (win0_6.rect t)).set ↔ _
  rw [View.set_slice_whole, Rect.mem_set_unit]
  exact Iff.rfl

/-- Row r lies in the block of point r / 512: the 32 row blocks tile the matrix. -/
theorem cover (i : S16384x768.Idx) :
    ∃ t : Fin cfg0.N, (cfg0.win 6).flush t = true ∧ i ∈ ((cfg0.win 6).blk t).view.set := by
  have h0 : (i 0).val < 16384 := (i 0).isLt
  have h1 : (i 1).val < 768 := (i 1).isLt
  have hN : cfg0.N = 32 := N_0
  obtain ⟨t, ht⟩ : ∃ t : Fin cfg0.N, t.val = (i 0).val / 512 := ⟨⟨(i 0).val / 512, by rw [hN]; omega⟩, rfl⟩
  obtain ⟨e0, e1⟩ := idx6 t
  refine ⟨t, flush0_6 t, ?_⟩
  rw [mem_blk]
  intro a
  match a with
  | ⟨0, _⟩ => show win0_6.index t 0 * 512 ≤ (i 0).val ∧ (i 0).val < win0_6.index t 0 * 512 + 512; rw [e0, ht]; omega
  | ⟨1, _⟩ => show win0_6.index t 1 * 768 ≤ (i 1).val ∧ (i 1).val < win0_6.index t 1 * 768 + 768; rw [e1]; omega

/-- After the region the result matrix holds `outRows`. -/
theorem final (c : Dev nD) : (dats m 0 c).arrAt 6 cfg0.N = outRows (aX m c) (aPhi m c) (aW1 m c) (aB1 m c) (aW2 m c) (aB2 m c) :=
  (dats m 0 c).arrAt_eq_of_cover 6 (outRows (aX m c) (aPhi m c) (aW1 m c) (aB1 m c) (aW2 m c) (aB2 m c)) (fun t _ => flushed_eq m c t) cover

/-! ## The reshape after the region, and the run -/

/-- Renumbering row 2048·b + s as token (b, s) turns `outRows` into `out`. -/
theorem tail_eq (c : Dev nD) :
    (Pipeline.afterTail₀ cfgs (dats m) 0 (V0 m) [hostOps1] c main_v10 : STok.Idx → EReal) = out (aX m c) (aPhi m c) (aW1 m c) (aB1 m c) (aW2 m c) (aB2 m c) := by
  unfold Pipeline.afterTail₀
  show StableHlo.after hostOps1 _ (Proc.devRef .tc main_v10) = _
  after_results
  have hA : (Pipeline.withArrays (cfgs 0).spec c (V0 m c) (fun w => (dats m 0 c).arrAt w (cfgs 0).N)
      (Proc.devRef .tc main_v9) : S16384x768.Idx → EReal) = outRows (aX m c) (aPhi m c) (aW1 m c) (aB1 m c) (aW2 m c) (aB2 m c) :=
    (Pipeline.withArrays_arr spec0 launch0.win.arr_inj c _ _ 6).trans (final m c)
  funext i
  obtain ⟨b, s, e, rfl⟩ : ∃ (b : Fin 8) (s : Fin 2048) (e : Fin 768), i = ix3 b s e := ⟨i 0, i 1, i 2, eq_ix3 i⟩
  show shapeCast S8x2048x768 (Pipeline.withArrays (cfgs 0).spec c (V0 m c) (fun w => (dats m 0 c).arrAt w (cfgs 0).N)
      (Proc.devRef .tc main_v9) : S16384x768.Idx → EReal) shapeCasts_S16384x768_S8x2048x768 (ix3 b s e) = _
  rw [hA, out_apply]
  have hb : b.val < 8 := b.isLt
  have hs : s.val < 2048 := s.isLt
  refine (shapeCast_apply _ shapeCasts_S16384x768_S8x2048x768 (ix3 b s e)
    (ix2 (⟨2048 * b.val + s.val, by omega⟩ : Fin 16384) e) ?_).trans ?_
  · rw [Shape.rowMajor_val_two, Shape.rowMajor_val_three]
    show (2048 * b.val + s.val) * 768 + e.val = (b.val * 2048 + s.val) * 768 + e.val
    omega
  · rw [outRows_apply]
    have eb : rowB (⟨2048 * b.val + s.val, by omega⟩ : Fin 16384) = b :=
      Fin.ext (by show (2048 * b.val + s.val) / 2048 = b.val; omega)
    have es : rowS (⟨2048 * b.val + s.val, by omega⟩ : Fin 16384) = s :=
      Fin.ext (by show (2048 * b.val + s.val) % 2048 = s.val; omega)
    rw [eb, es]

/-- The kernel's run, read: the result array ends at `out` of the argument arrays, which end unchanged. -/
theorem run : θ_run defs (onTc (τ := τ) (main (F := Ideal))) ⟨m, fun _ => 0, ρ⟩ fun r => ∀ c : Dev nD,
      r.2.mem ((c : Thread nD τ).loc main_v10) = out (aX m c) (aPhi m c) (aW1 m c) (aB1 m c) (aW2 m c) (aB2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c =>
    ⟨((h c).2 main_v10 (Pipeline.mem_restRefs_of main_v10 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Rows

end
-- ==== Proof.lean ====
/-
  The kernel and its reference compute one function of their six arguments on the extended reals.

  For a token (b, s), with meas q = cos (x[b, s, q] + phi[q]) on the first eight columns of the token's row of `x`,
      out[b, s, e] = Σ_{f<3072} max (Σ_{q<8} meas q · w1[f, q] + b1[f]) 0 · w2[e, f] + b2[e].
  The reference computes this as it is written, over the tokens. The kernel numbers the tokens as the rows
  r = 2048·b + s of a matrix, takes the weights transposed, computes 512 rows at each of 32 grid points with two matrix
  products into zero accumulators, and renumbers the rows as tokens afterwards. On the extended reals a product into a
  zero accumulator is the plain sum, a change of float format is the identity, and the cosine and the maximum are the
  same functions in both programs, so the two results agree term by term: no law of arithmetic beyond 0 + a = a is used,
  and the finiteness of the inputs is never needed.

  The two kernel programs' frames are the generated ones; the reference's frame is its run with the result dropped. The
  idealized kernel is the kernel's own text read on the extended reals, with no operation replaced, so `preserves` has
  no conjunct to prove.
-/
import proofs.«181434_j65481071398154_1_alg».proof.Defs
import proofs.«181434_j65481071398154_1_alg».proof.Proof.Gen.Kernel
import proofs.«181434_j65481071398154_1_alg».proof.Proof.Gen.Kernel.Skeleton
import proofs.«181434_j65481071398154_1_alg».proof.Proof.Gen.Kernel.Launch
import proofs.«181434_j65481071398154_1_alg».proof.Proof.Gen.Kernel.Points
import proofs.«181434_j65481071398154_1_alg».proof.Proof.Gen.Kernel.Frame
import proofs.«181434_j65481071398154_1_alg».proof.Proof.Gen.KernelIdeal
import proofs.«181434_j65481071398154_1_alg».proof.Proof.Gen.KernelIdeal.Skeleton
import proofs.«181434_j65481071398154_1_alg».proof.Proof.Gen.KernelIdeal.Launch
import proofs.«181434_j65481071398154_1_alg».proof.Proof.Gen.KernelIdeal.Points
import proofs.«181434_j65481071398154_1_alg».proof.Proof.Gen.KernelIdeal.Frame
import proofs.«181434_j65481071398154_1_alg».proof.Proof.Gen.ReferenceIdeal
import proofs.«181434_j65481071398154_1_alg».proof.Proof.Gen.Pre_finite_inputs
import proofs.«181434_j65481071398154_1_alg».proof.Proof.Gen.ReferenceIdeal.Run
import proofs.«181434_j65481071398154_1_alg».proof.Proof.Gen.ReferenceIdeal.Read
import proofs.«181434_j65481071398154_1_alg».proof.Proof.RefValue
import proofs.«181434_j65481071398154_1_alg».proof.Proof.KernelRows
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with their result at `out` of the argument arrays, which agree. -/
theorem algebraic : Cert.algebraic_KernelIdeal_ReferenceIdeal := by
  intro m ρ m' ρ' _ hagree
  refine ⟨fun c => Cert.Mlp.out (Cert.KernelIdeal.Rows.aX m c) (Cert.KernelIdeal.Rows.aPhi m c) (Cert.KernelIdeal.Rows.aW1 m c) (Cert.KernelIdeal.Rows.aB1 m c) (Cert.KernelIdeal.Rows.aW2 m c) (Cert.KernelIdeal.Rows.aB2 m c),
    Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.out_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
